-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x4096 : Shape := ⟨2, ![1024, 4096]⟩
abbrev S4096 : Shape := ⟨1, ![4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S1024x4096 .f32) (main_arg6 : FVec F S4096 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S16384x1024 .f32) (main_arg3 : FVec F S1024x4096 .f32) (main_arg4 : FVec F S4096 .f32) (main_arg5 : FVec F S1024x4096 .f32) (main_arg6 : FVec F S4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_v13 main_v16
-- ==== Kernel.lean ====
abbrev S16384x1024 : Shape := ⟨2, ![16384, 1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 13
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x4096, .f32⟩
  | .hbm, ⟨4, _⟩ => ⟨S4096, .f32⟩
  | .hbm, ⟨5, _⟩ => ⟨S1024x4096, .f32⟩
  | .hbm, ⟨6, _⟩ => ⟨S4096, .f32⟩
  | .hbm, ⟨7, _⟩ => ⟨S1024x4096, .bf16⟩
  | .hbm, ⟨8, _⟩ => ⟨S1024x4096, .bf16⟩
  | .hbm, ⟨9, _⟩ => ⟨S1x4096, .f32⟩
  | .hbm, ⟨10, _⟩ => ⟨S1x4096, .f32⟩
  | .hbm, ⟨11, _⟩ => ⟨S16384x1024, .f32⟩
  | .hbm, ⟨12, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1x4096, .f32⟩
  | .local _ .vmem, ⟨8, _⟩ => ⟨S1024x4096, .bf16⟩
  | .local _ .vmem, ⟨9, _⟩ => ⟨S1x4096, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S16384x1024.size a
  hwx0_8 : ∀ i : grid0.Coords, EltTy.bits .f32 = 32 ∨ (Rect.block (s := S16384x1024) S256x1024.size (cc0_transform_8 i) (hinb0_8 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x4096 : Shape := ⟨2, ![1024, 4096]⟩
abbrev S4096 : Shape := ⟨1, ![4096]⟩
abbrev S16384x4096 : Shape := ⟨2, ![16384, 4096]⟩
abbrev S1x4096 : Shape := ⟨2, ![1, 4096]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x4096, .f32⟩
  | .hbm, ⟨4, _⟩ => ⟨S4096, .f32⟩
  | .hbm, ⟨5, _⟩ => ⟨S1024x4096, .f32⟩
  | .hbm, ⟨6, _⟩ => ⟨S4096, .f32⟩
  | .hbm, ⟨7, _⟩ => ⟨S16384x4096, .f32⟩
  | .hbm, ⟨8, _⟩ => ⟨S1x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  dot_S16384x1024_S1024x4096_S16384x4096_1_0_0_1_n_n_wf : DotDims.WF S16384x1024 S1024x4096 S16384x4096 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf

class Facts : Prop extends Facts₀ where

variable [Facts]
-- ==== Proof.LstmSpec.lean ====
/-
  One step of an LSTM cell on a batch of rows, over the extended reals.

  A row of the input `x` and a row of the hidden state `s` (1024 entries each) are sent through two 1024 × 4096
  weight matrices and two bias vectors to 4096 pre-activations: entry `q` is

      (∑ₖ x[k]·Wx[k,q] + bx[q]) + (∑ₖ s[k]·Wh[k,q] + bh[q]).

  The 4096 columns are four gates of 1024 columns each, in the order input (tanh), modulation (logistic), forget
  (logistic), output (tanh). With `c` the old cell entry of column `j`,

      cell'  = c · σ(g[2048 + j]) + tanh(g[j]) · σ(g[1024 + j]),
      state' = tanh(cell') · tanh(g[3072 + j]).

  The only law used between two spellings of the pre-activation is associativity of addition, which holds on all of
  the extended reals; nothing here needs the entries to be finite.
-/
import Idealize.ShloMosaic.PureOps.Ideal
import Idealize.ShloMosaic.Lib.ValueIdx

noncomputable section

open Idealize.ShloMosaic Idealize.ShloMosaic.ValueIdx
open scoped BigOperators

namespace Cert.LstmSpec

/-- Column `j` of the input gate inside the 4096 pre-activations. -/
abbrev colI (j : Fin 1024) : Fin 4096 := ⟨j.val, by have := j.isLt; omega⟩
/-- Column `j` of the modulation gate. -/
abbrev colJ (j : Fin 1024) : Fin 4096 := ⟨j.val + 1024, by have := j.isLt; omega⟩
/-- Column `j` of the forget gate. -/
abbrev colF (j : Fin 1024) : Fin 4096 := ⟨j.val + 2048, by have := j.isLt; omega⟩
/-- Column `j` of the output gate. -/
abbrev colO (j : Fin 1024) : Fin 4096 := ⟨j.val + 3072, by have := j.isLt; omega⟩

/-- The pre-activation of column `q` for one row: the input row through `wx` plus its bias, added to the state row
    through `wh` plus its bias. -/
def gateRow (xr sr : Fin 1024 → EReal) (wx wh : (⟨2, ![1024, 4096]⟩ : Shape).Idx → EReal) (bx bh : Fin 4096 → EReal)
    (q : Fin 4096) : EReal :=
  ((∑ k : Fin 1024, xr k * wx (ix2 k q)) + bx q) + ((∑ k : Fin 1024, sr k * wh (ix2 k q)) + bh q)

/-- The same four terms added from the left, one after the other, give the same pre-activation. -/
theorem gateRow_left (xr sr : Fin 1024 → EReal) (wx wh : (⟨2, ![1024, 4096]⟩ : Shape).Idx → EReal)
    (bx bh : Fin 4096 → EReal) (q : Fin 4096) :
    (((∑ k : Fin 1024, xr k * wx (ix2 k q)) + bx q) + (∑ k : Fin 1024, sr k * wh (ix2 k q))) + bh q
      = gateRow xr sr wx wh bx bh q := by
  unfold gateRow
  rw [add_assoc]

/-- The new cell entry of column `j` from the old entry `c` and the row's pre-activations `g`. -/
def cellNext (c : EReal) (g : Fin 4096 → EReal) (j : Fin 1024) : EReal :=
  c * Ideal.logistic (g (colF j)) + Ideal.tanh (g (colI j)) * Ideal.logistic (g (colJ j))

/-- The new state entry of column `j`. -/
def stateNext (c : EReal) (g : Fin 4096 → EReal) (j : Fin 1024) : EReal :=
  Ideal.tanh (cellNext c g j) * Ideal.tanh (g (colO j))

/-- The new cell array of a batch of `R` rows. -/
def cellArr {R : Nat} (x s cell : (⟨2, ![R, 1024]⟩ : Shape).Idx → EReal)
    (wx wh : (⟨2, ![1024, 4096]⟩ : Shape).Idx → EReal) (bx bh : Fin 4096 → EReal) :
    (⟨2, ![R, 1024]⟩ : Shape).Idx → EReal := fun i =>
  cellNext (cell i) (gateRow (fun k => x (ix2 (i 0) k)) (fun k => s (ix2 (i 0) k)) wx wh bx bh) (i 1)

/-- The new state array of a batch of `R` rows. -/
def stateArr {R : Nat} (x s cell : (⟨2, ![R, 1024]⟩ : Shape).Idx → EReal)
    (wx wh : (⟨2, ![1024, 4096]⟩ : Shape).Idx → EReal) (bx bh : Fin 4096 → EReal) :
    (⟨2, ![R, 1024]⟩ : Shape).Idx → EReal := fun i =>
  stateNext (cell i) (gateRow (fun k => x (ix2 (i 0) k)) (fun k => s (ix2 (i 0) k)) wx wh bx bh) (i 1)

end Cert.LstmSpec

end
-- ==== Proof.LstmReference.lean ====
/-
  The reference program computes the LSTM step of `Cert.LstmSpec`: its two results, read one operation at a time, are
  `stateArr` and `cellArr` of its seven arguments (the biases read as functions of the column).

  The pre-activations are the two matrix products, each with its bias laid along every row, added; the four gates are
  column slices of width 1024 at offsets 0, 1024, 2048, 3072; the logistic function is spelled `1 / (1 + exp (-g))`,
  which on the extended reals is the logistic function itself, corners included.
-/
import proofs.«159946_j75634374082645_1_alg».proof.Proof.Gen.ReferenceIdeal.Read
import proofs.«159946_j75634374082645_1_alg».proof.Proof.LstmSpec
import Idealize.ShloMosaic.Lib.IdealHost

noncomputable section

open Idealize.ShloMosaic Idealize.ShloMosaic.TcCoe Idealize.ShloMosaic.ValueIdx
open scoped BigOperators

namespace Cert.ReferenceIdeal.LstmRef

open Cert.ReferenceIdeal Cert.ReferenceIdeal.Gen Cert.ReferenceIdeal.Read Cert.LstmSpec

variable (x0 x1 x2 : (⟨S16384x1024, .f32⟩ : BufTy).Contents (Elt Ideal))
  (x3 x5 : (⟨S1024x4096, .f32⟩ : BufTy).Contents (Elt Ideal)) (x4 x6 : (⟨S4096, .f32⟩ : BufTy).Contents (Elt Ideal))

/-- A bias vector as a function of the column. -/
abbrev biasFn (b : (⟨S4096, .f32⟩ : BufTy).Contents (Elt Ideal)) : Fin 4096 → EReal := fun q => b (ix1 q)

/-- The summed pre-activations at row `i 0` and column `i 1`. -/
theorem preact_apply (i : S16384x4096.Idx) :
    val_main_v8 (F := Ideal) x0 x1 x3 x4 x5 x6 i
      = gateRow (fun k => x0 (ix2 (i 0) k)) (fun k => x1 (ix2 (i 0) k)) x3 x5 (biasFn x4) (biasFn x6) (i 1) := by
  have el0 : ∀ k, lidx_main_v0 i k = ix2 (i 0) k := fun k => funext fun a => by
    match a with | ⟨0, _⟩ => rfl | ⟨1, _⟩ => rfl
  have er0 : ∀ k, ridx_main_v0 i k = ix2 k (i 1) := fun k => funext fun a => by
    match a with | ⟨0, _⟩ => rfl | ⟨1, _⟩ => rfl
  have el4 : ∀ k, lidx_main_v4 i k = ix2 (i 0) k := fun k => funext fun a => by
    match a with | ⟨0, _⟩ => rfl | ⟨1, _⟩ => rfl
  have er4 : ∀ k, ridx_main_v4 i k = ix2 k (i 1) := fun k => funext fun a => by
    match a with | ⟨0, _⟩ => rfl | ⟨1, _⟩ => rfl
  have eb1 : idx_main_v1 (idx_main_v2 i) = ix1 (i 1) := funext fun a => by
    match a with | ⟨0, _⟩ => rfl
  have eb5 : idx_main_v5 (idx_main_v6 i) = ix1 (i 1) := funext fun a => by
    match a with | ⟨0, _⟩ => rfl
  rw [val_main_v8_apply, val_main_v3_apply, val_main_v7_apply, val_main_v0_apply, val_main_v4_apply,
    val_main_v2_apply, val_main_v1_apply, val_main_v6_apply, val_main_v5_apply]
  simp only [el0, er0, el4, er4, eb1, eb5, Ideal.addf_def]
  rfl

/-- The input gate's pre-activation at an index of the result. -/
theorem gateI_apply (i : S16384x1024.Idx) :
    val_main_v9 (F := Ideal) x0 x1 x3 x4 x5 x6 i
      = gateRow (fun k => x0 (ix2 (i 0) k)) (fun k => x1 (ix2 (i 0) k)) x3 x5 (biasFn x4) (biasFn x6) (colI (i 1)) := by
  rw [val_main_v9_apply, preact_apply]
  rfl

/-- The modulation gate's. -/
theorem gateJ_apply (i : S16384x1024.Idx) :
    val_main_v10 (F := Ideal) x0 x1 x3 x4 x5 x6 i
      = gateRow (fun k => x0 (ix2 (i 0) k)) (fun k => x1 (ix2 (i 0) k)) x3 x5 (biasFn x4) (biasFn x6) (colJ (i 1)) := by
  rw [val_main_v10_apply, preact_apply]
  exact congrArg _ (Fin.ext (Nat.add_comm _ _))

/-- The forget gate's. -/
theorem gateF_apply (i : S16384x1024.Idx) :
    val_main_v11 (F := Ideal) x0 x1 x3 x4 x5 x6 i
      = gateRow (fun k => x0 (ix2 (i 0) k)) (fun k => x1 (ix2 (i 0) k)) x3 x5 (biasFn x4) (biasFn x6) (colF (i 1)) := by
  rw [val_main_v11_apply, preact_apply]
  exact congrArg _ (Fin.ext (Nat.add_comm _ _))

/-- The output gate's. -/
theorem gateO_apply (i : S16384x1024.Idx) :
    val_main_v12 (F := Ideal) x0 x1 x3 x4 x5 x6 i
      = gateRow (fun k => x0 (ix2 (i 0) k)) (fun k => x1 (ix2 (i 0) k)) x3 x5 (biasFn x4) (biasFn x6) (colO (i 1)) := by
  rw [val_main_v12_apply, preact_apply]
  exact congrArg _ (Fin.ext (Nat.add_comm _ _))

/-- `1 / (1 + exp (-g))` with the literal `1.0` is the logistic function on the extended reals. -/
theorem logistic_spelled (g : EReal) :
    Ideal.div (Ideal.ofBits .f32 0x3F800000#32) (Ideal.ofBits .f32 0x3F800000#32 + Ideal.exp (-g)) = Ideal.logistic g := by
  rw [Ideal.ofBits_one_f32]
  rfl

/-- The reference's second result is the new cell array. -/
theorem cell_eq :
    val_main_v29 (F := Ideal) x0 x1 x2 x3 x4 x5 x6 = cellArr x0 x1 x2 x3 x5 (biasFn x4) (biasFn x6) := by
  funext i
  rw [val_main_v29_apply, val_main_v27_apply, val_main_v28_apply, val_main_v25_apply, val_main_v19_apply,
    val_main_v13_apply, val_main_v24_apply, val_main_v18_apply, val_main_v23_apply, val_main_v17_apply,
    val_main_v22_apply, val_main_v16_apply, val_main_v21_apply, val_main_v15_apply, val_main_v20_apply,
    val_main_v14_apply, val_main_cst_2_apply, val_main_cst_0_apply, val_main_cst_1_apply, val_main_cst_apply,
    gateI_apply, gateJ_apply, gateF_apply]
  simp only [Ideal.addf_def, Ideal.mulf_def, Ideal.hostDivf_def, Ideal.hostUnary_exp_def, Ideal.hostUnary_tanh_def,
    Ideal.hostNegf_def, Ideal.negf_def, Ideal.ofBits_def, logistic_spelled]
  rfl

/-- The reference's first result is the new state array. -/
theorem state_eq :
    val_main_v31 (F := Ideal) x0 x1 x2 x3 x4 x5 x6 = stateArr x0 x1 x2 x3 x5 (biasFn x4) (biasFn x6) := by
  funext i
  rw [val_main_v31_apply, val_main_v30_apply, val_main_v26_apply, gateO_apply, cell_eq]
  simp only [Ideal.mulf_def, Ideal.hostUnary_tanh_def]
  rfl

end Cert.ReferenceIdeal.LstmRef

end
-- ==== Proof.LstmKernelBlock.lean ====
/-
  One grid point of the kernel, as the LSTM step of `Cert.LstmSpec` on its 256 rows.

  The body multiplies the point's 256 × 1024 blocks of `x` and of the state by the two whole 1024 × 4096 weight
  matrices (a change of float format is the identity on the extended reals, and the product into a zero accumulator is
  the plain sum of products), adds the biases — each a one-row matrix laid down the 256 rows —, slices the four gates
  out of the 4096 columns and combines them with the cell block. It adds the four terms of a pre-activation from the
  left, one after the other; `gateRow_left` regroups them.
-/
import proofs.«159946_j75634374082645_1_alg».proof.Proof.Gen.KernelIdeal.Value
import proofs.«159946_j75634374082645_1_alg».proof.Proof.LstmSpec
import Idealize.ShloMosaic.Lib.KernelVsHost
import Idealize.ShloMosaic.Lib.StackMember

noncomputable section

open Idealize.ShloMosaic Idealize.ShloMosaic.TcCoe Idealize.ShloMosaic.ValueIdx
open scoped BigOperators

namespace Cert.KernelIdeal.LstmBlock

open Cert.KernelIdeal Cert.KernelIdeal.Gen Cert.LstmSpec

theorem hz : (![0, 0] : Fin 2 → Nat) = fun _ => 0 := funext fun a => by fin_cases a <;> rfl

/-- A one-row bias block as a function of the column. -/
abbrev rowFn (b : Vec Ideal S1x4096 .f32) : Fin 4096 → EReal := fun q => b (ix2 0 q)

/-- The body's product of a 256 × 1024 block by a 1024 × 4096 matrix, at row `p` and column `q`. -/
theorem product_apply (A : Vec Ideal S256x1024 .f32) (W : Vec Ideal S1024x4096 .bf16) (p : Fin 256) (q : Fin 4096) :
    matmul (F := Ideal) (φ₁ := .bf16) (φ₂ := .bf16) dot_S256x1024_S1024x4096_S256x4096_1_0_0_1_n_n none
        (truncf .bf16 A bitsLt_bf16_f32) (shapeCast S1024x4096 (W : FVec Ideal S1024x4096 .bf16) shapeCasts_S1024x4096_S1024x4096)
        (constant S256x4096 .f32 0x00000000#32) (ix2 p q)
      = ∑ k : Fin 1024, A (ix2 p k) * W (ix2 k q) := by
  rw [shapeCast_self, matmul_zero_eq_dotGeneral]
  exact StackMember.dotGeneral_plain_apply (m := 256) (n := 4096) none (truncf .bf16 A bitsLt_bf16_f32) W p q

/-- A bias block laid down the rows, at row `p` and column `q`. -/
theorem bias_apply (b : Vec Ideal S1x4096 .f32) (p : Fin 256) (q : Fin 4096) :
    broadcastTo S256x4096 (shapeCast S1x4096 b shapeCasts_S1x4096_S1x4096) broadcasts_S1x4096_S256x4096 (ix2 p q)
      = b (ix2 0 q) := by
  rw [shapeCast_self]
  refine broadcastTo_apply b broadcasts_S1x4096_S256x4096 (ix2 p q) (ix2 0 q) fun a => ?_
  match a with
  | ⟨0, _⟩ => rfl
  | ⟨1, _⟩ => rfl

/-- The body's 256 × 4096 pre-activations, at row `p` and column `q`. -/
theorem preact_apply (P1 P2 : Vec Ideal S256x1024 .f32) (P3 P4 : Vec Ideal S1024x4096 .bf16)
    (P5 P6 : Vec Ideal S1x4096 .f32) (p : Fin 256) (q : Fin 4096) :
    k0_pay1 (F := Ideal) P1 P2 P3 P4 P5 P6 (ix2 p q)
      = gateRow (fun k => P1 (ix2 p k)) (fun k => P2 (ix2 p k)) P3 P4 (rowFn P5) (rowFn P6) q := by
  rw [← gateRow_left]
  unfold k0_pay1
  rw [addf_apply, addf_apply, addf_apply, product_apply, product_apply, bias_apply, bias_apply]

/-- What the body leaves in the state output's block, at row `p` and column `j` of the block. -/
theorem state_block_apply (P0 P1 P2 : Vec Ideal S256x1024 .f32) (P3 P4 : Vec Ideal S1024x4096 .bf16)
    (P5 P6 : Vec Ideal S1x4096 .f32) (p : Fin 256) (j : Fin 1024) :
    Value.E7 (F := Ideal) P0 P1 P2 P3 P4 P5 P6 (ix2 p j)
      = stateNext (P0 (ix2 p j)) (gateRow (fun k => P1 (ix2 p k)) (fun k => P2 (ix2 p k)) P3 P4 (rowFn P5) (rowFn P6)) j := by
  have h0 : Value.ix7_0 (ix2 p j) = ix2 p j := funext fun a => by match a with | ⟨0, _⟩ => rfl | ⟨1, _⟩ => rfl
  have h1 : Value.ix7_1 (ix2 p j) = ix2 p (colF j) := funext fun a => by match a with | ⟨0, _⟩ => rfl | ⟨1, _⟩ => rfl
  have h2 : Value.ix7_2 (ix2 p j) = ix2 p (colI j) := funext fun a => by match a with | ⟨0, _⟩ => rfl | ⟨1, _⟩ => rfl
  have h3 : Value.ix7_3 (ix2 p j) = ix2 p (colJ j) := funext fun a => by match a with | ⟨0, _⟩ => rfl | ⟨1, _⟩ => rfl
  have h4 : Value.ix7_4 (ix2 p j) = ix2 p (colO j) := funext fun a => by match a with | ⟨0, _⟩ => rfl | ⟨1, _⟩ => rfl
  show FloatOps.mulf (FloatOps.tanh (FloatOps.addf (FloatOps.mulf (P0 (Value.ix7_0 (ix2 p j))) (FloatOps.logistic ((k0_pay1 P1 P2 P3 P4 P5 P6) (Value.ix7_1 (ix2 p j))))) (FloatOps.mulf (FloatOps.tanh ((k0_pay1 P1 P2 P3 P4 P5 P6) (Value.ix7_2 (ix2 p j)))) (FloatOps.logistic ((k0_pay1 P1 P2 P3 P4 P5 P6) (Value.ix7_3 (ix2 p j))))))) (FloatOps.tanh ((k0_pay1 P1 P2 P3 P4 P5 P6) (Value.ix7_4 (ix2 p j)))) = _
  rw [h0, h1, h2, h3, h4, preact_apply, preact_apply, preact_apply, preact_apply]
  rfl

/-- What the body leaves in the cell output's block, at row `p` and column `j` of the block. -/
theorem cell_block_apply (P0 P1 P2 : Vec Ideal S256x1024 .f32) (P3 P4 : Vec Ideal S1024x4096 .bf16)
    (P5 P6 : Vec Ideal S1x4096 .f32) (p : Fin 256) (j : Fin 1024) :
    Value.E8 (F := Ideal) P0 P1 P2 P3 P4 P5 P6 (ix2 p j)
      = cellNext (P0 (ix2 p j)) (gateRow (fun k => P1 (ix2 p k)) (fun k => P2 (ix2 p k)) P3 P4 (rowFn P5) (rowFn P6)) j := by
  have h0 : Value.ix8_0 (ix2 p j) = ix2 p j := funext fun a => by match a with | ⟨0, _⟩ => rfl | ⟨1, _⟩ => rfl
  have h1 : Value.ix8_1 (ix2 p j) = ix2 p (colF j) := funext fun a => by match a with | ⟨0, _⟩ => rfl | ⟨1, _⟩ => rfl
  have h2 : Value.ix8_2 (ix2 p j) = ix2 p (colI j) := funext fun a => by match a with | ⟨0, _⟩ => rfl | ⟨1, _⟩ => rfl
  have h3 : Value.ix8_3 (ix2 p j) = ix2 p (colJ j) := funext fun a => by match a with | ⟨0, _⟩ => rfl | ⟨1, _⟩ => rfl
  show FloatOps.addf (FloatOps.mulf (P0 (Value.ix8_0 (ix2 p j))) (FloatOps.logistic ((k0_pay1 P1 P2 P3 P4 P5 P6) (Value.ix8_1 (ix2 p j))))) (FloatOps.mulf (FloatOps.tanh ((k0_pay1 P1 P2 P3 P4 P5 P6) (Value.ix8_2 (ix2 p j)))) (FloatOps.logistic ((k0_pay1 P1 P2 P3 P4 P5 P6) (Value.ix8_3 (ix2 p j))))) = _
  rw [h0, h1, h2, h3, preact_apply, preact_apply, preact_apply]
  rfl

/-- The state output's staging buffer after the body, from the seven input blocks, at row `p` and column `j`. -/
theorem state_out_apply (x0 x1 x2 : Vec Ideal S256x1024 .f32) (x3 : Vec Ideal S1024x4096 .bf16)
    (x4 : Vec Ideal S1x4096 .f32) (x5 : Vec Ideal S1024x4096 .bf16) (x6 : Vec Ideal S1x4096 .f32)
    (p : Fin 256) (j : Fin 1024) :
    out0_7 (F := Ideal) x0 x1 x2 x3 x4 x5 x6 (ix2 p j)
      = stateNext (x2 (ix2 p j)) (gateRow (fun k => x0 (ix2 p k)) (fun k => x1 (ix2 p k)) x3 x5 (rowFn x4) (rowFn x6)) j := by
  unfold out0_7
  rw [Value.canon7_eq]
  simp only [View.ld_unit_zero (S := S256x1024) hz, View.ld_unit_zero (S := S1024x4096) hz,
    View.ld_unit_zero (S := S1x4096) hz]
  exact state_block_apply x2 x0 x1 x3 x5 x4 x6 p j

/-- The cell output's staging buffer after the body, likewise. -/
theorem cell_out_apply (x0 x1 x2 : Vec Ideal S256x1024 .f32) (x3 : Vec Ideal S1024x4096 .bf16)
    (x4 : Vec Ideal S1x4096 .f32) (x5 : Vec Ideal S1024x4096 .bf16) (x6 : Vec Ideal S1x4096 .f32)
    (p : Fin 256) (j : Fin 1024) :
    out0_8 (F := Ideal) x0 x1 x2 x3 x4 x5 x6 (ix2 p j)
      = cellNext (x2 (ix2 p j)) (gateRow (fun k => x0 (ix2 p k)) (fun k => x1 (ix2 p k)) x3 x5 (rowFn x4) (rowFn x6)) j := by
  unfold out0_8
  rw [Value.canon8_eq]
  simp only [View.ld_unit_zero (S := S256x1024) hz, View.ld_unit_zero (S := S1024x4096) hz,
    View.ld_unit_zero (S := S1x4096) hz]
  exact cell_block_apply x2 x0 x1 x3 x5 x4 x6 p j

end Cert.KernelIdeal.LstmBlock

end
-- ==== Proof.LstmKernelArray.lean ====
/-
  The kernel's two result arrays after the run are the LSTM step of `Cert.LstmSpec` of its seven arguments.

  The grid has 64 points. Point `t` reads rows `256·t … 256·t + 255` of `x`, of the state and of the cell, the two
  weight matrices and the two biases whole (their block index is (0, 0) at every point), and writes back rows
  `256·t … 256·t + 255` of each result. A row of a result depends only on the same row of `x`, state and cell, so
  what point `t` writes back is block `t` of the whole-batch function; the 64 blocks cover the 16384 rows (row `r`
  lies in block `r / 256`). Before the region the host changes the float format of the weights, which is the
  identity on the extended reals, and reshapes each bias vector to a one-row matrix.
-/
import proofs.«159946_j75634374082645_1_alg».proof.Proof.LstmKernelBlock
import Idealize.ShloMosaic.Lib.Pipeline.Value
import Idealize.ShloMosaic.Lib.StableHlo.Run

noncomputable section

open Idealize.ShloMosaic Idealize.ShloMosaic.TcCoe Idealize.ShloMosaic.ValueIdx Idealize.SL.Sem
open Idealize.ShloMosaic.Pipeline (Dat)
open scoped BigOperators

namespace Cert.KernelIdeal.LstmArr

open Cert.KernelIdeal Cert.KernelIdeal.Gen Cert.KernelIdeal.Value Cert.LstmSpec Cert.KernelIdeal.LstmBlock

variable (m : (ℓ : Loc nD τ sig) → Buf (Elt Ideal) ℓ) (ρ : Dev nD → PrngReg)

/-! ## The arrays as the region finds them -/

abbrev xA (c : Dev nD) : S16384x1024.Idx → EReal := V m c main_arg0
abbrev sA (c : Dev nD) : S16384x1024.Idx → EReal := V m c main_arg1
abbrev cA (c : Dev nD) : S16384x1024.Idx → EReal := V m c main_arg2
abbrev wxA (c : Dev nD) : S1024x4096.Idx → EReal := V m c main_v0
abbrev whA (c : Dev nD) : S1024x4096.Idx → EReal := V m c main_v1
abbrev bxA (c : Dev nD) : S1x4096.Idx → EReal := V m c main_v2
abbrev bhA (c : Dev nD) : S1x4096.Idx → EReal := V m c main_v3

/-- The whole-batch state result over the arrays as the region finds them. -/
abbrev stateV (c : Dev nD) : S16384x1024.Idx → EReal :=
  stateArr (xA m c) (sA m c) (cA m c) (wxA m c) (whA m c) (rowFn (bxA m c)) (rowFn (bhA m c))

/-- The whole-batch cell result over the arrays as the region finds them. -/
abbrev cellV (c : Dev nD) : S16384x1024.Idx → EReal :=
  cellArr (xA m c) (sA m c) (cA m c) (wxA m c) (whA m c) (rowFn (bxA m c)) (rowFn (bhA m c))

/-! ## The block indices over the grid -/

/-- The three row-streamed inputs and the two results are at block (t, 0) at point `t`; the weights and the biases
    are at block (0, 0) at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem point_lt (t : Fin cfg0.N) : t.val < 64 := lt_of_lt_of_eq t.isLt N_0

/-- Row `p` of point `t`'s blocks is row `256·t + p` of the batch. -/
abbrev rowOf (t : Fin cfg0.N) (p : Fin 256) : Fin 16384 :=
  ⟨t.val * 256 + p.val, by have := point_lt t; have := p.isLt; omega⟩

/-! ## The input blocks read off their arrays -/

theorem x_rows (c : Dev nD) (t : Fin cfg0.N) (p : Fin 256) (k : Fin 1024) :
    (iblk m c 0 t : Vec Ideal S256x1024 .f32) (ix2 p k) = xA m c (ix2 (rowOf t p) k) := by
  obtain ⟨e0, e1, -⟩ := idx_facts t
  unfold iblk
  show V m c main_arg0 (((cfg0.win 0).blk t).view.emb (ix2 p k)) = V m c main_arg0 (ix2 (rowOf t p) k)
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

theorem s_rows (c : Dev nD) (t : Fin cfg0.N) (p : Fin 256) (k : Fin 1024) :
    (iblk m c 1 t : Vec Ideal S256x1024 .f32) (ix2 p k) = sA m c (ix2 (rowOf t p) k) := by
  obtain ⟨-, -, e0, e1, -⟩ := idx_facts t
  unfold iblk
  show V m c main_arg1 (((cfg0.win 1).blk t).view.emb (ix2 p k)) = V m c main_arg1 (ix2 (rowOf t p) k)
  refine congrArg _ (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

theorem c_rows (c : Dev nD) (t : Fin cfg0.N) (p : Fin 256) (k : Fin 1024) :
    (iblk m c 2 t : Vec Ideal S256x1024 .f32) (ix2 p k) = cA m c (ix2 (rowOf t p) k) := by
  obtain ⟨-, -, -, -, e0, e1, -⟩ := idx_facts t
  unfold iblk
  show V m c main_arg2 (((cfg0.win 2).blk t).view.emb (ix2 p k)) = V m c main_arg2 (ix2 (rowOf t p) k)
  refine congrArg _ (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * k.val = k.val; omega

theorem wx_whole (c : Dev nD) (t : Fin cfg0.N) : (iblk m c 3 t : Vec Ideal S1024x4096 .bf16) = wxA m c := by
  obtain ⟨-, -, -, -, -, -, e0, e1, -⟩ := idx_facts t
  unfold iblk
  funext z
  show V m c main_v0 (((cfg0.win 3).blk t).view.emb z) = V m c main_v0 z
  refine congrArg _ (funext fun a => Fin.ext ?_)
  match a with
  | ⟨0, _⟩ => show win0_3.index t (0 : Fin 2) * 1024 + 1 * (z 0).val = (z 0).val; omega
  | ⟨1, _⟩ => show win0_3.index t (1 : Fin 2) * 4096 + 1 * (z 1).val = (z 1).val; omega

theorem bx_whole (c : Dev nD) (t : Fin cfg0.N) : (iblk m c 4 t : Vec Ideal S1x4096 .f32) = bxA m c := by
  obtain ⟨-, -, -, -, -, -, -, -, e0, e1, -⟩ := idx_facts t
  unfold iblk
  funext z
  show V m c main_v2 (((cfg0.win 4).blk t).view.emb z) = V m c main_v2 z
  refine congrArg _ (funext fun a => Fin.ext ?_)
  match a with
  | ⟨0, _⟩ => show win0_4.index t (0 : Fin 2) * 1 + 1 * (z 0).val = (z 0).val; omega
  | ⟨1, _⟩ => show win0_4.index t (1 : Fin 2) * 4096 + 1 * (z 1).val = (z 1).val; omega

theorem wh_whole (c : Dev nD) (t : Fin cfg0.N) : (iblk m c 5 t : Vec Ideal S1024x4096 .bf16) = whA m c := by
  obtain ⟨-, -, -, -, -, -, -, -, -, -, e0, e1, -⟩ := idx_facts t
  unfold iblk
  funext z
  show V m c main_v1 (((cfg0.win 5).blk t).view.emb z) = V m c main_v1 z
  refine congrArg _ (funext fun a => Fin.ext ?_)
  match a with
  | ⟨0, _⟩ => show win0_5.index t (0 : Fin 2) * 1024 + 1 * (z 0).val = (z 0).val; omega
  | ⟨1, _⟩ => show win0_5.index t (1 : Fin 2) * 4096 + 1 * (z 1).val = (z 1).val; omega

theorem bh_whole (c : Dev nD) (t : Fin cfg0.N) : (iblk m c 6 t : Vec Ideal S1x4096 .f32) = bhA m c := by
  obtain ⟨-, -, -, -, -, -, -, -, -, -, -, -, e0, e1, -⟩ := idx_facts t
  unfold iblk
  funext z
  show V m c main_v3 (((cfg0.win 6).blk t).view.emb z) = V m c main_v3 z
  refine congrArg _ (funext fun a => Fin.ext ?_)
  match a with
  | ⟨0, _⟩ => show win0_6.index t (0 : Fin 2) * 1 + 1 * (z 0).val = (z 0).val; omega
  | ⟨1, _⟩ => show win0_6.index t (1 : Fin 2) * 4096 + 1 * (z 1).val = (z 1).val; omega

/-! ## What a point writes back -/

/-- The pre-activations of row `p` of point `t` are those of row `256·t + p` of the batch. -/
theorem gate_point (c : Dev nD) (t : Fin cfg0.N) (p : Fin 256) :
    gateRow (fun k => (iblk m c 0 t : Vec Ideal S256x1024 .f32) (ix2 p k))
        (fun k => (iblk m c 1 t : Vec Ideal S256x1024 .f32) (ix2 p k))
        (iblk m c 3 t : Vec Ideal S1024x4096 .bf16) (iblk m c 5 t : Vec Ideal S1024x4096 .bf16)
        (rowFn (iblk m c 4 t : Vec Ideal S1x4096 .f32)) (rowFn (iblk m c 6 t : Vec Ideal S1x4096 .f32))
      = gateRow (fun k => xA m c (ix2 (rowOf t p) k)) (fun k => sA m c (ix2 (rowOf t p) k)) (wxA m c) (whA m c)
          (rowFn (bxA m c)) (rowFn (bhA m c)) := by
  rw [wx_whole, wh_whole, bx_whole, bh_whole, funext (x_rows m c t p), funext (s_rows m c t p)]

/-- The state block point `t` leaves, at row `p` and column `j`. -/
theorem state_point (c : Dev nD) (t : Fin cfg0.N) (p : Fin 256) (j : Fin 1024) :
    out0_7 (F := Ideal) (iblk m c 0 t) (iblk m c 1 t) (iblk m c 2 t) (iblk m c 3 t) (iblk m c 4 t) (iblk m c 5 t)
        (iblk m c 6 t) (ix2 p j)
      = stateV m c (ix2 (rowOf t p) j) := by
  refine (state_out_apply (iblk m c 0 t) (iblk m c 1 t) (iblk m c 2 t) (iblk m c 3 t) (iblk m c 4 t) (iblk m c 5 t)
    (iblk m c 6 t) p j).trans ?_
  rw [gate_point, c_rows]
  rfl

/-- The cell block point `t` leaves, at row `p` and column `j`. -/
theorem cell_point (c : Dev nD) (t : Fin cfg0.N) (p : Fin 256) (j : Fin 1024) :
    out0_8 (F := Ideal) (iblk m c 0 t) (iblk m c 1 t) (iblk m c 2 t) (iblk m c 3 t) (iblk m c 4 t) (iblk m c 5 t)
        (iblk m c 6 t) (ix2 p j)
      = cellV m c (ix2 (rowOf t p) j) := by
  refine (cell_out_apply (iblk m c 0 t) (iblk m c 1 t) (iblk m c 2 t) (iblk m c 3 t) (iblk m c 4 t) (iblk m c 5 t)
    (iblk m c 6 t) p j).trans ?_
  rw [gate_point, c_rows]
  rfl

/-- Point `t` writes back block `t` of the whole-batch state result. -/
theorem flushed7_eq (c : Dev nD) (t : Fin cfg0.N) :
    (dats m 0 c).flushed 7 t = ((cfg0.win 7).blk t).view.read (Elt Ideal) (stateV m c) := by
  obtain ⟨-, -, -, -, -, -, -, -, -, -, -, -, -, -, e0, e1, -⟩ := idx_facts t
  rw [Value.flushed7]
  funext y
  obtain ⟨p, j, rfl⟩ : ∃ (p : Fin 256) (j : Fin 1024), y = ix2 p j := ⟨y 0, y 1, eq_ix2 y⟩
  show out0_7 (F := Ideal) (iblk m c 0 t) (iblk m c 1 t) (iblk m c 2 t) (iblk m c 3 t) (iblk m c 4 t) (iblk m c 5 t)
      (iblk m c 6 t) (ix2 p j) = stateV m c (((cfg0.win 7).blk t).view.emb (ix2 p j))
  rw [state_point]
  refine congrArg _ (funext fun a => Fin.ext ?_)
  match a with
  | ⟨0, _⟩ => show t.val * 256 + p.val = win0_7.index t (0 : Fin 2) * 256 + 1 * p.val; omega
  | ⟨1, _⟩ => show j.val = win0_7.index t (1 : Fin 2) * 1024 + 1 * j.val; omega

/-- Point `t` writes back block `t` of the whole-batch cell result. -/
theorem flushed8_eq (c : Dev nD) (t : Fin cfg0.N) :
    (dats m 0 c).flushed 8 t = ((cfg0.win 8).blk t).view.read (Elt Ideal) (cellV m c) := by
  obtain ⟨-, -, -, -, -, -, -, -, -, -, -, -, -, -, -, -, e0, e1⟩ := idx_facts t
  rw [Value.flushed8]
  funext y
  obtain ⟨p, j, rfl⟩ : ∃ (p : Fin 256) (j : Fin 1024), y = ix2 p j := ⟨y 0, y 1, eq_ix2 y⟩
  show out0_8 (F := Ideal) (iblk m c 0 t) (iblk m c 1 t) (iblk m c 2 t) (iblk m c 3 t) (iblk m c 4 t) (iblk m c 5 t)
      (iblk m c 6 t) (ix2 p j) = cellV m c (((cfg0.win 8).blk t).view.emb (ix2 p j))
  rw [cell_point]
  refine congrArg _ (funext fun a => Fin.ext ?_)
  match a with
  | ⟨0, _⟩ => show t.val * 256 + p.val = win0_8.index t (0 : Fin 2) * 256 + 1 * p.val; omega
  | ⟨1, _⟩ => show j.val = win0_8.index t (1 : Fin 2) * 1024 + 1 * j.val; omega

/-! ## The 64 blocks cover the batch -/

theorem mem_blk7 (t : Fin cfg0.N) (i : S16384x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v4_0).slice (win0_7.rect t)).set ↔ _
  rw [View.set_slice_whole, Rect.mem_set_unit]
  exact Iff.rfl

theorem mem_blk8 (t : Fin cfg0.N) (i : S16384x1024.Idx) :
    i ∈ ((cfg0.win 8).blk t).view.set ↔ ∀ a : Fin 2, win0_8.index t a * S256x1024.size a ≤ (i a).val
      ∧ (i a).val < win0_8.index t a * S256x1024.size a + S256x1024.size a := by
  show i ∈ ((View.whole main_v4_1).slice (win0_8.rect t)).set ↔ _
  rw [View.set_slice_whole, Rect.mem_set_unit]
  exact Iff.rfl

/-- Row `r` lies in the block of point `r / 256`. -/
theorem cover7 (i : S16384x1024.Idx) :
    ∃ t : Fin cfg0.N, (cfg0.win 7).flush t = true ∧ i ∈ ((cfg0.win 7).blk t).view.set := by
  have hi0 : (i 0).val < 16384 := (i 0).isLt
  have hi1 : (i 1).val < 1024 := (i 1).isLt
  obtain ⟨t, ht⟩ : ∃ t : Fin cfg0.N, t.val = (i 0).val / 256 :=
    ⟨⟨(i 0).val / 256, by rw [show cfg0.N = 64 from N_0]; omega⟩, rfl⟩
  obtain ⟨-, -, -, -, -, -, -, -, -, -, -, -, -, -, e0, e1, -⟩ := idx_facts t
  refine ⟨t, flush0_7 t, ?_⟩
  rw [mem_blk7]
  intro a
  match a with
  | ⟨0, _⟩ =>
    show win0_7.index t (0 : Fin 2) * 256 ≤ (i 0).val ∧ (i 0).val < win0_7.index t (0 : Fin 2) * 256 + 256
    omega
  | ⟨1, _⟩ =>
    show win0_7.index t (1 : Fin 2) * 1024 ≤ (i 1).val ∧ (i 1).val < win0_7.index t (1 : Fin 2) * 1024 + 1024
    omega

theorem cover8 (i : S16384x1024.Idx) :
    ∃ t : Fin cfg0.N, (cfg0.win 8).flush t = true ∧ i ∈ ((cfg0.win 8).blk t).view.set := by
  have hi0 : (i 0).val < 16384 := (i 0).isLt
  have hi1 : (i 1).val < 1024 := (i 1).isLt
  obtain ⟨t, ht⟩ : ∃ t : Fin cfg0.N, t.val = (i 0).val / 256 :=
    ⟨⟨(i 0).val / 256, by rw [show cfg0.N = 64 from N_0]; omega⟩, rfl⟩
  obtain ⟨-, -, -, -, -, -, -, -, -, -, -, -, -, -, -, -, e0, e1⟩ := idx_facts t
  refine ⟨t, flush0_8 t, ?_⟩
  rw [mem_blk8]
  intro a
  match a with
  | ⟨0, _⟩ =>
    show win0_8.index t (0 : Fin 2) * 256 ≤ (i 0).val ∧ (i 0).val < win0_8.index t (0 : Fin 2) * 256 + 256
    omega
  | ⟨1, _⟩ =>
    show win0_8.index t (1 : Fin 2) * 1024 ≤ (i 1).val ∧ (i 1).val < win0_8.index t (1 : Fin 2) * 1024 + 1024
    omega

/-- The state result array after the run. -/
theorem final7 (c : Dev nD) : (dats m 0 c).arrAt 7 cfg0.N = stateV m c :=
  (dats m 0 c).arrAt_eq_of_cover 7 (stateV m c) (fun t _ => flushed7_eq m c t) cover7

/-- The cell result array after the run. -/
theorem final8 (c : Dev nD) : (dats m 0 c).arrAt 8 cfg0.N = cellV m c :=
  (dats m 0 c).arrAt_eq_of_cover 8 (cellV m c) (fun t _ => flushed8_eq m c t) cover8

/-! ## The arrays the region finds, from the arguments as launched -/

/-- A bias vector as a function of the column. -/
abbrev biasFn (b : S4096.Idx → EReal) : Fin 4096 → EReal := fun q => b (ix1 q)

theorem wxA_eq (c : Dev nD) : wxA m c = (m ((c : Thread nD τ).loc main_arg3) : S1024x4096.Idx → EReal) := by
  have e : (V m c main_v0 : S1024x4096.Idx → EReal)
      = truncf (F := Ideal) .bf16 (m ((c : Thread nD τ).loc main_arg3) : FVec Ideal S1024x4096 .f32) bitsLt_bf16_f32 := by
    dsimp only [V, hostOps0]; after_results
  exact e

theorem whA_eq (c : Dev nD) : whA m c = (m ((c : Thread nD τ).loc main_arg5) : S1024x4096.Idx → EReal) := by
  have e : (V m c main_v1 : S1024x4096.Idx → EReal)
      = truncf (F := Ideal) .bf16 (m ((c : Thread nD τ).loc main_arg5) : FVec Ideal S1024x4096 .f32) bitsLt_bf16_f32 := by
    dsimp only [V, hostOps0]; after_results
  exact e

theorem reshaped_row (b : S4096.Idx → EReal) (q : Fin 4096) :
    shapeCast S1x4096 b shapeCasts_S4096_S1x4096 (ix2 0 q) = b (ix1 q) := by
  refine (shapeCast_addUnit_apply ![4096] b shapeCasts_S4096_S1x4096 (ix2 0 q)).trans (congrArg b ?_)
  funext a
  match a with
  | ⟨0, _⟩ => rfl

theorem bxA_eq (c : Dev nD) :
    rowFn (bxA m c) = biasFn (m ((c : Thread nD τ).loc main_arg4) : S4096.Idx → EReal) := by
  have e : (V m c main_v2 : S1x4096.Idx → EReal)
      = shapeCast S1x4096 (m ((c : Thread nD τ).loc main_arg4) : S4096.Idx → EReal) shapeCasts_S4096_S1x4096 := by
    dsimp only [V, hostOps0]; after_results; rfl
  funext q
  show (V m c main_v2 : S1x4096.Idx → EReal) (ix2 0 q) = _
  rw [e, reshaped_row]

theorem bhA_eq (c : Dev nD) :
    rowFn (bhA m c) = biasFn (m ((c : Thread nD τ).loc main_arg6) : S4096.Idx → EReal) := by
  have e : (V m c main_v3 : S1x4096.Idx → EReal)
      = shapeCast S1x4096 (m ((c : Thread nD τ).loc main_arg6) : S4096.Idx → EReal) shapeCasts_S4096_S1x4096 := by
    dsimp only [V, hostOps0]; after_results; rfl
  funext q
  show (V m c main_v3 : S1x4096.Idx → EReal) (ix2 0 q) = _
  rw [e, reshaped_row]

/-- The state result of the arguments as launched. -/
abbrev stateM (c : Dev nD) : S16384x1024.Idx → EReal :=
  stateArr (m ((c : Thread nD τ).loc main_arg0) : S16384x1024.Idx → EReal)
    (m ((c : Thread nD τ).loc main_arg1) : S16384x1024.Idx → EReal)
    (m ((c : Thread nD τ).loc main_arg2) : S16384x1024.Idx → EReal)
    (m ((c : Thread nD τ).loc main_arg3) : S1024x4096.Idx → EReal)
    (m ((c : Thread nD τ).loc main_arg5) : S1024x4096.Idx → EReal)
    (biasFn (m ((c : Thread nD τ).loc main_arg4) : S4096.Idx → EReal))
    (biasFn (m ((c : Thread nD τ).loc main_arg6) : S4096.Idx → EReal))

/-- The cell result of the arguments as launched. -/
abbrev cellM (c : Dev nD) : S16384x1024.Idx → EReal :=
  cellArr (m ((c : Thread nD τ).loc main_arg0) : S16384x1024.Idx → EReal)
    (m ((c : Thread nD τ).loc main_arg1) : S16384x1024.Idx → EReal)
    (m ((c : Thread nD τ).loc main_arg2) : S16384x1024.Idx → EReal)
    (m ((c : Thread nD τ).loc main_arg3) : S1024x4096.Idx → EReal)
    (m ((c : Thread nD τ).loc main_arg5) : S1024x4096.Idx → EReal)
    (biasFn (m ((c : Thread nD τ).loc main_arg4) : S4096.Idx → EReal))
    (biasFn (m ((c : Thread nD τ).loc main_arg6) : S4096.Idx → EReal))

theorem stateV_eq (c : Dev nD) : stateV m c = stateM m c := by
  show stateArr (xA m c) (sA m c) (cA m c) (wxA m c) (whA m c) (rowFn (bxA m c)) (rowFn (bhA m c)) = _
  rw [wxA_eq, whA_eq, bxA_eq, bhA_eq]
  show stateArr (V m c main_arg0) (V m c main_arg1) (V m c main_arg2) _ _ _ _ = _
  rw [V_main_arg0, V_main_arg1, V_main_arg2]

theorem cellV_eq (c : Dev nD) : cellV m c = cellM m c := by
  show cellArr (xA m c) (sA m c) (cA m c) (wxA m c) (whA m c) (rowFn (bxA m c)) (rowFn (bhA m c)) = _
  rw [wxA_eq, whA_eq, bxA_eq, bhA_eq]
  show cellArr (V m c main_arg0) (V m c main_arg1) (V m c main_arg2) _ _ _ _ = _
  rw [V_main_arg0, V_main_arg1, V_main_arg2]

/-! ## The run, read -/

/-- Every weakly fair execution of the kernel program terminates with the two results at the LSTM step of the
    arguments, the arguments unchanged. -/
theorem run : θ_run defs (onTc (τ := τ) (main (F := Ideal))) ⟨m, fun _ => 0, ρ⟩ fun r => ∀ c : Dev nD,
      r.2.mem ((c : Thread nD τ).loc main_v4_0) = stateM m c
      ∧ r.2.mem ((c : Thread nD τ).loc main_v4_1) = cellM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
      ⟨(h c).1.trans ((final7 m c).trans (stateV_eq m c)),
        (h c).2.1.trans ((final8 m c).trans (cellV_eq m c)), (h c).2.2⟩)
    (Value.run_blocks m ρ)

end Cert.KernelIdeal.LstmArr

end
-- ==== Proof.lean ====
/-
  A Pallas kernel for one step of an LSTM cell over a batch of 16384 rows against its jnp reference, on the extended
  reals.

  Both programs compute, for row `r` and column `j` (1024 columns),

      g[r, q] = (∑ₖ x[r,k]·Wx[k,q] + bx[q]) + (∑ₖ state[r,k]·Wh[k,q] + bh[q])          (4096 columns q)
      cell'[r, j]  = cell[r, j] · σ(g[r, 2048 + j]) + tanh(g[r, j]) · σ(g[r, 1024 + j])
      state'[r, j] = tanh(cell'[r, j]) · tanh(g[r, 3072 + j])

  and return (state', cell'). The kernel works on 64 blocks of 256 rows, changes the float format of the matrix
  operands (the identity on the extended reals), adds the four terms of `g` from the left where the reference adds
  two sums, and uses the logistic operation where the reference spells `1 / (1 + exp (-g))`: the same function on
  the extended reals. Addition is associative on all of the extended reals, so the precondition is not used.

  `LstmSpec` states the function; `LstmReference` reads the reference's run as that function; `LstmKernelBlock`
  reads one grid point of the kernel as that function on its rows; `LstmKernelArray` assembles the points into the
  result arrays and the kernel's run. The ideal pass rewrote nothing, so `preserves` is trivial.
-/
import proofs.«159946_j75634374082645_1_alg».proof.Defs
import proofs.«159946_j75634374082645_1_alg».proof.Proof.Gen.Kernel
import proofs.«159946_j75634374082645_1_alg».proof.Proof.Gen.Kernel.Skeleton
import proofs.«159946_j75634374082645_1_alg».proof.Proof.Gen.Kernel.Launch
import proofs.«159946_j75634374082645_1_alg».proof.Proof.Gen.Kernel.Points
import proofs.«159946_j75634374082645_1_alg».proof.Proof.Gen.Kernel.Frame
import proofs.«159946_j75634374082645_1_alg».proof.Proof.Gen.KernelIdeal
import proofs.«159946_j75634374082645_1_alg».proof.Proof.Gen.KernelIdeal.Skeleton
import proofs.«159946_j75634374082645_1_alg».proof.Proof.Gen.KernelIdeal.Launch
import proofs.«159946_j75634374082645_1_alg».proof.Proof.Gen.KernelIdeal.Points
import proofs.«159946_j75634374082645_1_alg».proof.Proof.Gen.KernelIdeal.Frame
import proofs.«159946_j75634374082645_1_alg».proof.Proof.Gen.ReferenceIdeal
import proofs.«159946_j75634374082645_1_alg».proof.Proof.Gen.Pre_finite_inputs
import proofs.«159946_j75634374082645_1_alg».proof.Proof.Gen.KernelIdeal.Value
import proofs.«159946_j75634374082645_1_alg».proof.Proof.Gen.ReferenceIdeal.Run
import proofs.«159946_j75634374082645_1_alg».proof.Proof.Gen.ReferenceIdeal.Read
import proofs.«159946_j75634374082645_1_alg».proof.Proof.LstmReference
import proofs.«159946_j75634374082645_1_alg».proof.Proof.LstmKernelArray
import Idealize.ShloMosaic.Adequacy
import Idealize.ShloMosaic.Init

noncomputable section

namespace Cert.Proof

open Idealize.ShloMosaic Idealize.ShloMosaic.TcCoe Idealize.SL.Sem

/-- The reference terminates with its arguments unchanged: its run with the two results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- Both idealized programs end with the LSTM step of the arguments in their two results. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.LstmArr.stateM m c, fun c => Cert.KernelIdeal.LstmArr.cellM m c,
    Cert.KernelIdeal.LstmArr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6⟩ := hagree c
    refine (Cert.ReferenceIdeal.Read.val_main_v31_eq _ _ _ _ _ _ _).trans ?_
    refine (Cert.ReferenceIdeal.LstmRef.state_eq _ _ _ _ _ _ _).trans ?_
    rw [h0, h1, h2, h3, h4, h5, h6]
  · obtain ⟨h0, h1, h2, h3, h4, h5, h6⟩ := hagree c
    refine (Cert.ReferenceIdeal.Read.val_main_v29_eq _ _ _ _ _ _ _).trans ?_
    refine (Cert.ReferenceIdeal.LstmRef.cell_eq _ _ _ _ _ _ _).trans ?_
    rw [h0, h1, h2, h3, h4, h5, h6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
